-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x128 .f32) (main_arg9 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S256x256 .f32) (main_arg7 : FVec F S256 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S600000x128 .f32) (main_arg2 : FVec F S384x256 .f32) (main_arg3 : FVec F S256 .f32) (main_arg4 : FVec F S256x128 .f32) (main_arg5 : FVec F S128 .f32) (main_arg6 : FVec F S256x256 .f32) (main_arg7 : FVec F S256 .f32) (main_arg8 : FVec F S256x128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩
abbrev S600000x1 : Shape := ⟨2, ![600000, 1]⟩
abbrev S2400x128 : Shape := ⟨2, ![2400, 128]⟩
abbrev S2400x384 : Shape := ⟨2, ![2400, 384]⟩
abbrev S2400x256 : Shape := ⟨2, ![2400, 256]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S100000x128, .f32⟩
  | .hbm, ⟨51, _⟩ => ⟨S100000x128, .f32⟩
  | .local _ .vmem, ⟨0, _⟩ => ⟨S2400x128, .f32⟩
  | .local _ .vmem, ⟨1, _⟩ => ⟨S2400x128, .f32⟩
  | .local _ .vmem, ⟨2, _⟩ => ⟨S2400x128, .f32⟩
  | .local _ .vmem, ⟨3, _⟩ => ⟨S2400x128, .f32⟩
  | .local _ .vmem, ⟨4, _⟩ => ⟨S2400x128, .f32⟩
  | .local _ .vmem, ⟨5, _⟩ => ⟨S2400x128, .f32⟩
  | .local _ .vmem, ⟨6, _⟩ => ⟨S384x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S2400x128, .f32⟩
  | .local _ .vmem, ⟨11, _⟩ => ⟨S2400x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S256x256, .f32⟩
  | .local _ .vmem, ⟨17, _⟩ => ⟨S256, .f32⟩
  | .local _ .vmem, ⟨18, _⟩ => ⟨S256x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S2400x128_S2400x128_0_0 : ∀ a, (![0, 0] : Fin 2 → Nat) a + S2400x128.size a ≤ S2400x128.size a
  h_S2400x128 : 0 < S2400x128.numel
  shapeCasts_S2400x128_S2400x128 : S2400x128.ShapeCasts S2400x128
  concatenates_S2400x128_S2400x128_S2400x128_S2400x384_d1 : Shape.Concatenates [S2400x128, S2400x128, S2400x128] S2400x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S256_S256_0 : ∀ a, (![0] : Fin 1 → Nat) a + S256.size a ≤ S256.size a
  h_S256 : 0 < S256.numel
  shapeCasts_S256_S1x256 : S256.ShapeCasts S1x256
  broadcasts_S1x256_S2400x256 : S1x256.Broadcasts S2400x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2400x128 : S1x128.Broadcasts S2400x128
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  broadcasts_S1x256_S2000x256 : S1x256.Broadcasts S2000x256
  broadcasts_S1x128_S2000x128 : S1x128.Broadcasts S2000x128
  gather_S100000x128_S600000x1_S600000x128_1_0_n_n_0_1_1128_wf : GatherDims.WF S100000x128 S600000x1 S600000x128 [1] [0] [] [0] [] 1 ![1, 128]
  dot_S2400x384_S384x256_S2400x256_1_0_0_1_n_n_wf : DotDims.WF S2400x384 S384x256 S2400x256 [1] [0] [0] [1] [] []
  dot_S2400x256_S256x128_S2400x128_1_0_0_1_n_n_wf : DotDims.WF S2400x256 S256x128 S2400x128 [1] [0] [0] [1] [] []
  scatter_S100000x128_S600000x1_S600000x128_1_0_0_1_wf : ScatterDims.WF S100000x128 S600000x1 S600000x128 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2400x128.size a ≤ S600000x128.size a
  hwx0_0 : ∀ i : grid0.Coords, EltTy.bits .f32 = 32 ∨ (Rect.block (s := S600000x128) S2400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2400x128.size a ≤ S600000x128.size a
  hwx0_1 : ∀ i : grid0.Coords, EltTy.bits .f32 = 32 ∨ (Rect.block (s := S600000x128) S2400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2400x128.size a ≤ S600000x128.size a
  hwx0_2 : ∀ i : grid0.Coords, EltTy.bits .f32 = 32 ∨ (Rect.block (s := S600000x128) S2400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2400x128.size a ≤ S600000x128.size a
  hwx0_7 : ∀ i : grid0.Coords, EltTy.bits .f32 = 32 ∨ (Rect.block (s := S600000x128) S2400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S2400x384_S384x256_S2400x256_1_0_0_1_n_n : DotDims S2400x384 S384x256 S2400x256 where
  lhsContracting := [1]
  rhsContracting := [0]
  lhsNonContracting := [0]
  rhsNonContracting := [1]
  lhsBatch := []
  rhsBatch := []
  wf := dot_S2400x384_S384x256_S2400x256_1_0_0_1_n_n_wf
def dot_S2400x256_S256x128_S2400x128_1_0_0_1_n_n : DotDims S2400x256 S256x128 S2400x128 where
  lhsContracting := [1]
  rhsContracting := [0]
  lhsNonContracting := [0]
  rhsNonContracting := [1]
  lhsBatch := []
  rhsBatch := []
  wf := dot_S2400x256_S256x128_S2400x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg1) S2400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S2400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S600000x384 : Shape := ⟨2, ![600000, 384]⟩
abbrev S1x256 : Shape := ⟨2, ![1, 256]⟩
abbrev S1x128 : Shape := ⟨2, ![1, 128]⟩
abbrev S100000x256 : Shape := ⟨2, ![100000, 256]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x256, .f32⟩
  | .hbm, ⟨31, _⟩ => ⟨S600000x384, .f32⟩
  | .hbm, ⟨32, _⟩ => ⟨S600000x256, .f32⟩
  | .hbm, ⟨33, _⟩ => ⟨S1x256, .f32⟩
  | .hbm, ⟨34, _⟩ => ⟨S600000x256, .f32⟩
  | .hbm, ⟨35, _⟩ => ⟨S600000x256, .f32⟩
  | .hbm, ⟨36, _⟩ => ⟨S_, .f32⟩
  | .hbm, ⟨37, _⟩ => ⟨S600000x256, .f32⟩
  | .hbm, ⟨38, _⟩ => ⟨S600000x256, .f32⟩
  | .hbm, ⟨39, _⟩ => ⟨S600000x128, .f32⟩
  | .hbm, ⟨40, _⟩ => ⟨S1x128, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S100000x128, .f32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  concatenates_S600000x128_S600000x256_S600000x384_d1 : Shape.Concatenates [S600000x128, S600000x256] S600000x384 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x384_S384x256_S600000x256_1_0_0_1_n_n_wf : DotDims.WF S600000x384 S384x256 S600000x256 [1] [0] [0] [1] [] []
  dot_S600000x256_S256x128_S600000x128_1_0_0_1_n_n_wf : DotDims.WF S600000x256 S256x128 S600000x128 [1] [0] [0] [1] [] []
  scatter_S100000x128_S600000x1_S600000x128_1_0_0_1_wf : ScatterDims.WF S100000x128 S600000x1 S600000x128 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x256_S600000x256_1_0_0_1_n_n : DotDims S600000x384 S384x256 S600000x256 where
  lhsContracting := [1]
  rhsContracting := [0]
  lhsNonContracting := [0]
  rhsNonContracting := [1]
  lhsBatch := []
  rhsBatch := []
  wf := dot_S600000x384_S384x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.HostValues.lean ====
/-
  What the buffers hold where each kernel region is entered and where the program returns.

  Before the first region the host gathers rows of the node table: `rowIndex e` is the index column the gather reads
  (a negative index moved up by the table's height, the rest as given), `gathered x e` the gathered rows. Between the
  regions the host adds each edge's result row into the rows of both its endpoints, starting from zero: `scattered`.
  No host operation and no region writes an argument array, so each region finds them as launched; the first
  region's result array is still in place at the return.
-/
import proofs.«173672_j50869592655555_1_alg».proof.Proof.Gen.KernelIdeal.Frame
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]

/-- The index column a row gather or scatter reads: a negative index counts from the table's end. -/
def rowIndex (e : IVec S600000 32) : IVec S600000x1 32 :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 100000#32))) e)

/-- Row `k` of the result is the node table's row at index `k` of `e`. -/
def gathered (x : FVec F S100000x128 .f32) (e : IVec S600000 32) : FVec F S600000x128 .f32 :=
  Host.gather gather_S100000x128_S600000x1_S600000x128_1_0_n_n_0_1_1128 x (rowIndex e)

/-- From zero, every row of `u` added into the row its source index names, then into the row its destination index names. -/
def scattered (e10 e11 : IVec S600000 32) (u : FVec F S600000x128 .f32) : FVec F S100000x128 .f32 :=
  Host.scatterAdd scatter_S100000x128_S600000x1_S600000x128_1_0_0_1
    (Host.scatterAdd scatter_S100000x128_S600000x1_S600000x128_1_0_0_1
      (broadcastInDim S100000x128 ![] bcast_S_S100000x128 (constant (F := F) S_ .f32 0x00000000#32)) (rowIndex e10) u)
    (rowIndex e11) u

variable (m : (ℓ : Loc nD τ sig) → Buf (Elt F) ℓ) (ρ : Dev nD → PrngReg)

/-! ## Where the first region is entered -/

theorem V1_v6 (c : Dev nD) : (V1 m ρ c main_v6 : FVec F S600000x128 .f32)
    = gathered (m ((c : Thread nD τ).loc main_arg0)) (m ((c : Thread nD τ).loc main_arg10)) := by
  show StableHlo.after hostOps0 (W0 m ρ c) (Proc.devRef .tc main_v6) = _
  after_results
  rfl

theorem V1_v13 (c : Dev nD) : (V1 m ρ c main_v13 : FVec F S600000x128 .f32)
    = gathered (m ((c : Thread nD τ).loc main_arg0)) (m ((c : Thread nD τ).loc main_arg11)) := by
  show StableHlo.after hostOps0 (W0 m ρ c) (Proc.devRef .tc main_v13) = _
  after_results
  rfl

theorem V1_arg1 (c : Dev nD) : V1 m ρ c main_arg1 = m ((c : Thread nD τ).loc main_arg1) :=
  StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

theorem V1_arg3 (c : Dev nD) : V1 m ρ c main_arg3 = m ((c : Thread nD τ).loc main_arg3) :=
  StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

theorem V1_arg4 (c : Dev nD) : V1 m ρ c main_arg4 = m ((c : Thread nD τ).loc main_arg4) :=
  StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

theorem V1_arg5 (c : Dev nD) : V1 m ρ c main_arg5 = m ((c : Thread nD τ).loc main_arg5) :=
  StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

/-! ## Between the regions -/

/-- The first region leaves an argument array it does not stage where it was. -/
theorem W2_arg0 (c : Dev nD) : W2 m ρ c (Proc.devRef .tc main_arg0) = m ((c : Thread nD τ).loc main_arg0) :=
  (W2_of_ne m ρ c main_arg0 (by decide)).trans
    (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg6 (c : Dev nD) : W2 m ρ c (Proc.devRef .tc main_arg6) = m ((c : Thread nD τ).loc main_arg6) :=
  (W2_of_ne m ρ c main_arg6 (by decide)).trans
    (StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg7 (c : Dev nD) : W2 m ρ c (Proc.devRef .tc main_arg7) = m ((c : Thread nD τ).loc main_arg7) :=
  (W2_of_ne m ρ c main_arg7 (by decide)).trans
    (StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg8 (c : Dev nD) : W2 m ρ c (Proc.devRef .tc main_arg8) = m ((c : Thread nD τ).loc main_arg8) :=
  (W2_of_ne m ρ c main_arg8 (by decide)).trans
    (StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg9 (c : Dev nD) : W2 m ρ c (Proc.devRef .tc main_arg9) = m ((c : Thread nD τ).loc main_arg9) :=
  (W2_of_ne m ρ c main_arg9 (by decide)).trans
    (StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg10 (c : Dev nD) : W2 m ρ c (Proc.devRef .tc main_arg10) = m ((c : Thread nD τ).loc main_arg10) :=
  (W2_of_ne m ρ c main_arg10 (by decide)).trans
    (StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg11 (c : Dev nD) : W2 m ρ c (Proc.devRef .tc main_arg11) = m ((c : Thread nD τ).loc main_arg11) :=
  (W2_of_ne m ρ c main_arg11 (by decide)).trans
    (StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

/-- Where the second region is entered, the scattered sums are those of the first region's result array. -/
theorem V3_v29 (c : Dev nD) : (V3 m ρ c main_v29 : FVec F S100000x128 .f32)
    = scattered (m ((c : Thread nD τ).loc main_arg10)) (m ((c : Thread nD τ).loc main_arg11))
        (W2 m ρ c (Proc.devRef .tc main_v14)) := by
  show StableHlo.after hostOps1 (W2 m ρ c) (Proc.devRef .tc main_v29) = _
  after_results_simp
  rw [W2_arg10, W2_arg11]
  rfl

theorem V3_arg0 (c : Dev nD) : V3 m ρ c main_arg0 = m ((c : Thread nD τ).loc main_arg0) :=
  (StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg0 m ρ c)

theorem V3_arg6 (c : Dev nD) : V3 m ρ c main_arg6 = m ((c : Thread nD τ).loc main_arg6) :=
  (StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg6 m ρ c)

theorem V3_arg7 (c : Dev nD) : V3 m ρ c main_arg7 = m ((c : Thread nD τ).loc main_arg7) :=
  (StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg7 m ρ c)

theorem V3_arg8 (c : Dev nD) : V3 m ρ c main_arg8 = m ((c : Thread nD τ).loc main_arg8) :=
  (StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg8 m ρ c)

theorem V3_arg9 (c : Dev nD) : V3 m ρ c main_arg9 = m ((c : Thread nD τ).loc main_arg9) :=
  (StableHlo.after_of_forall_not_mem (b := Proc.devRef .tc main_arg9) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg9 m ρ c)

/-! ## At the return -/

/-- The node result is what the second region's write-backs leave in its result array. -/
theorem W4_v30 (c : Dev nD) : W4 m ρ c (Proc.devRef .tc main_v30) = (dat1 (V3 m ρ) c).arrAt 6 cfg1.N :=
  W4_arr m ρ c 6

/-- The edge result is what the first region's write-backs left: nothing after that region writes it. -/
theorem W2_v14 (c : Dev nD) : W2 m ρ c (Proc.devRef .tc main_v14) = (dat0 (V1 m ρ) c).arrAt 7 cfg0.N :=
  W2_arr m ρ c 7

theorem W4_v14 (c : Dev nD) : W4 m ρ c (Proc.devRef .tc main_v14) = (dat0 (V1 m ρ) c).arrAt 7 cfg0.N :=
  ((W4_of_ne m ρ c main_v14 (by decide)).trans
    (StableHlo.after_of_forall_not_mem (b := Proc.devRef .tc main_v14) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide))))).trans (W2_v14 m ρ c)

end Cert.KernelIdeal.HostValues

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Mlp.lean ====
/-
  A dense layer and the two-layer perceptron, entry by entry on the extended reals.

  `dense x W b` is the [n, p] array `x · W + b`: entry (r, j) is the sum over i of x(r, i) · W(i, j), plus b(j).
  `relu v` is the entrywise maximum with 0. `mlp x W1 b1 W2 b2 = dense (relu (dense x W1 b1)) W2 b2`.
  A matrix product into a zero accumulator (on the matrix unit, after the operands' change of format, which on the
  extended reals is the identity) and the host's `dot_general` are both the plain sum over the contracted axis, so either
  followed by the broadcast bias is `dense`. Row `r` of `mlp x …` reads only row `r` of `x`.
-/
import Idealize.ShloMosaic.PureOps.Ideal.Laws
import Idealize.ShloMosaic.Lib.ValueIdx
import Idealize.ShloMosaic.Lib.ValueLayout
import Idealize.ShloMosaic.Lib.Pipeline.Value
import proofs.«173672_j50869592655555_1_alg».proof.Proof.LibContraction

noncomputable section

open scoped BigOperators

namespace Cert.Mlp

open Idealize.ShloMosaic Idealize.ShloMosaic.ValueIdx

/-- An [n, p] array of extended reals. -/
abbrev Mat (n p : Nat) : Type := (⟨2, ![n, p]⟩ : Shape).Idx → EReal
/-- A length-p vector of extended reals. -/
abbrev Row (p : Nat) : Type := (⟨1, ![p]⟩ : Shape).Idx → EReal

/-- `x · W + b`, entry by entry. -/
def dense {n K p : Nat} (x : Mat n K) (W : Mat K p) (b : Row p) : Mat n p := fun j =>
  (∑ i : Fin K, x (ix2 (n0 := n) (n1 := K) (j 0) i) * W (ix2 (n0 := K) (n1 := p) i (j 1))) + b (ix1 (n := p) (j 1))

/-- The entrywise maximum with zero. -/
def relu {n p : Nat} (v : Mat n p) : Mat n p := fun j => max (v j) 0

/-- Linear, maximum with zero, linear. -/
def mlp {n K H p : Nat} (x : Mat n K) (W1 : Mat K H) (b1 : Row H) (W2 : Mat H p) (b2 : Row p) : Mat n p :=
  dense (relu (dense x W1 b1)) W2 b2

/-- The dimension numbers of a plain [n, K] × [K, p] product: axis 1 of the left against axis 0 of the right, no batch. -/
structure Plain {n K p : Nat} (d : DotDims (⟨2, ![n, K]⟩ : Shape) (⟨2, ![K, p]⟩ : Shape) (⟨2, ![n, p]⟩ : Shape)) : Prop where
  lc : d.lhsContracting = [1]
  rc : d.rhsContracting = [0]
  ln : d.lhsNonContracting = [0]
  rn : d.rhsNonContracting = [1]
  lb : d.lhsBatch = []
  rb : d.rhsBatch = []

/-- A plain contraction's sum over its positions is the sum over the shared axis. -/
theorem contraction_eq {n K p : Nat} (d : DotDims (⟨2, ![n, K]⟩ : Shape) (⟨2, ![K, p]⟩ : Shape) (⟨2, ![n, p]⟩ : Shape))
    (hd : Plain d) (l : Mat n K) (r : Mat K p) (j : (⟨2, ![n, p]⟩ : Shape).Idx) :
    ∑ k : d.contr.Idx, l (d.lhsIdx j k) * r (d.rhsIdx j k)
      = ∑ i : Fin K, l (ix2 (n0 := n) (n1 := K) (j 0) i) * r (ix2 (n0 := K) (n1 := p) i (j 1)) := by
  rw [Cert.Lib.Contraction.sum_contr d hd.lc K rfl]
  refine Finset.sum_congr rfl fun i _ => ?_
  have hl : d.lhsIdx j ((Cert.Lib.Contraction.contrFin d hd.lc K rfl).symm i) = ix2 (n0 := n) (n1 := K) (j 0) i := by
    funext a
    refine Fin.ext ?_
    match a with
    | ⟨0, _⟩ => exact Cert.Lib.Contraction.lhs_free d hd.lb hd.ln j _ Nat.zero_lt_two
    | ⟨1, _⟩ => exact Cert.Lib.Contraction.lhs_contracted d hd.lc K rfl j i
  have hr : d.rhsIdx j ((Cert.Lib.Contraction.contrFin d hd.lc K rfl).symm i) = ix2 (n0 := K) (n1 := p) i (j 1) := by
    funext a
    refine Fin.ext ?_
    match a with
    | ⟨0, _⟩ => exact Cert.Lib.Contraction.rhs_contracted d hd.lc hd.rc K rfl j i
    | ⟨1, _⟩ => exact Cert.Lib.Contraction.rhs_free d hd.lb hd.rb hd.ln hd.rn j _ Nat.one_lt_two
  rw [hl, hr]

/-- On the matrix unit: the operands rounded to bf16 (the identity here), multiplied into a zero accumulator, the bias
    (a vector viewed as one row, repeated down the rows) added. -/
theorem matmul_eq_dense {n K p : Nat} (d : DotDims (⟨2, ![n, K]⟩ : Shape) (⟨2, ![K, p]⟩ : Shape) (⟨2, ![n, p]⟩ : Shape))
    (hd : Plain d) (x : FVec Ideal (⟨2, ![n, K]⟩ : Shape) .f32) (W : FVec Ideal (⟨2, ![K, p]⟩ : Shape) .f32)
    (b : FVec Ideal (⟨1, ![p]⟩ : Shape) .f32) (hlt : FTy.bf16.bits < FTy.f32.bits)
    (hs : (⟨1, ![p]⟩ : Shape).ShapeCasts (⟨2, ![1, p]⟩ : Shape))
    (hb : (⟨2, ![1, p]⟩ : Shape).Broadcasts (⟨2, ![n, p]⟩ : Shape)) :
    addf (matmul d none (truncf .bf16 x hlt) (truncf .bf16 W hlt) (constant (F := Ideal) (⟨2, ![n, p]⟩ : Shape) .f32 0x00000000#32))
        (broadcastTo (⟨2, ![n, p]⟩ : Shape) (shapeCast (⟨2, ![1, p]⟩ : Shape) b hs) hb)
      = dense x W b := by
  funext j
  obtain ⟨a, c, rfl⟩ : ∃ (a : Fin n) (c : Fin p), j = ix2 a c := ⟨j 0, j 1, eq_ix2 j⟩
  -- the product into the zero accumulator is the plain sum over the shared axis
  have hm := (Ideal.matmul_constant_zero_apply d none (truncf .bf16 x hlt) (truncf .bf16 W hlt) (ix2 a c)).trans
    (contraction_eq d hd (truncf .bf16 x hlt) (truncf .bf16 W hlt) (ix2 a c))
  -- the bias, viewed as one row and repeated down the rows, reads b at the column
  have hbias : broadcastTo (⟨2, ![n, p]⟩ : Shape) (shapeCast (⟨2, ![1, p]⟩ : Shape) b hs) hb (ix2 a c) = b (ix1 c) :=
    (broadcastTo_1b_ab_apply _ hb a c).trans (shapeCast_a_1a_apply b hs 0 c)
  refine (addf_apply _ _ _).trans ?_
  exact congrArg₂ (· + ·) hm hbias

/-- On the host: `dot_general`, the bias broadcast first to one row and then down the rows, added. -/
theorem dotGeneral_eq_dense {n K p : Nat} (d : DotDims (⟨2, ![n, K]⟩ : Shape) (⟨2, ![K, p]⟩ : Shape) (⟨2, ![n, p]⟩ : Shape))
    (hd : Plain d) (x : FVec Ideal (⟨2, ![n, K]⟩ : Shape) .f32) (W : FVec Ideal (⟨2, ![K, p]⟩ : Shape) .f32)
    (b : FVec Ideal (⟨1, ![p]⟩ : Shape) .f32)
    (h1 : (⟨1, ![p]⟩ : Shape).BroadcastsInDim (⟨2, ![1, p]⟩ : Shape) (![1] : Fin 1 → Fin 2))
    (h2 : (⟨2, ![1, p]⟩ : Shape).BroadcastsInDim (⟨2, ![n, p]⟩ : Shape) (![0, 1] : Fin 2 → Fin 2)) :
    addf (Host.dotGeneral (F := Ideal) d none x W)
        (broadcastInDim (⟨2, ![n, p]⟩ : Shape) ![0, 1] h2 (broadcastInDim (⟨2, ![1, p]⟩ : Shape) ![1] h1 b))
      = dense x W b := by
  funext j
  obtain ⟨a, c, rfl⟩ : ∃ (a : Fin n) (c : Fin p), j = ix2 a c := ⟨j 0, j 1, eq_ix2 j⟩
  -- the host's product is the plain sum over the shared axis
  have hm : Host.dotGeneral (F := Ideal) d none x W (ix2 a c)
      = ∑ i : Fin K, x (ix2 (n0 := n) (n1 := K) a i) * W (ix2 (n0 := K) (n1 := p) i c) :=
    (Ideal.dotGeneral_apply d none .single x W (ix2 a c)).trans (contraction_eq d hd x W (ix2 a c))
  -- the bias, broadcast to one row and then down the rows, reads b at the column
  have hcol : c.val = if p = 1 then 0 else c.val := by
    split
    · have := c.isLt; omega
    · rfl
  have hbias : broadcastInDim (⟨2, ![n, p]⟩ : Shape) ![0, 1] h2 (broadcastInDim (⟨2, ![1, p]⟩ : Shape) ![1] h1 b) (ix2 a c)
      = b (ix1 c) := by
    refine (broadcastInDim_apply _ h2 _ (ix2 a c) (ix2 (0 : Fin 1) c) fun ax => ?_).trans ?_
    · match ax with
      | ⟨0, _⟩ => rfl
      | ⟨1, _⟩ => exact hcol
    · refine broadcastInDim_apply _ h1 b (ix2 (0 : Fin 1) c) (ix1 c) fun ax => ?_
      match ax with
      | ⟨0, _⟩ => exact hcol
  refine (addf_apply _ _ _).trans ?_
  exact congrArg₂ (· + ·) hm hbias

/-- In the kernel: the maximum with a splat zero, then the rounding to bf16 (the identity here). -/
theorem maximumf_broadcast_eq_relu {n p : Nat} (v : FVec Ideal (⟨2, ![n, p]⟩ : Shape) .f32) (hlt : FTy.bf16.bits < FTy.f32.bits) :
    (truncf .bf16 (maximumf v (broadcast (⟨2, ![n, p]⟩ : Shape) (Scalar.ofBits (F := Ideal) .f32 0x00000000#32))) hlt
        : FVec Ideal (⟨2, ![n, p]⟩ : Shape) .bf16)
      = relu v := by
  funext j
  show max (v j) (Ideal.ofBits .f32 0x00000000#32) = max (v j) 0
  rw [Ideal.ofBits_zero_f32]

/-- On the host: the maximum with a broadcast scalar zero. -/
theorem maximumf_broadcastInDim_eq_relu {n p : Nat} (v : FVec Ideal (⟨2, ![n, p]⟩ : Shape) .f32)
    (h0 : (⟨0, ![]⟩ : Shape).BroadcastsInDim (⟨2, ![n, p]⟩ : Shape) (![] : Fin 0 → Fin 2)) :
    maximumf v (broadcastInDim (⟨2, ![n, p]⟩ : Shape) ![] h0 (constant (F := Ideal) (⟨0, ![]⟩ : Shape) .f32 0x00000000#32))
      = relu v := by
  funext j
  -- the broadcast scalar reads the zero word's value, which is 0, everywhere
  have hz : broadcastInDim (⟨2, ![n, p]⟩ : Shape) ![] h0 (constant (F := Ideal) (⟨0, ![]⟩ : Shape) .f32 0x00000000#32) j = 0 :=
    (broadcastInDim_apply _ h0 _ j ix0 fun ax => ax.elim0).trans Ideal.ofBits_zero_f32
  show max (v j) _ = max (v j) 0
  rw [hz]

/-- Row `r` of the perceptron's result reads only row `r` of its input: inputs (of any heights) that agree on a row
    give results that agree on it. -/
theorem mlp_row {n n' K H p : Nat} (x : Mat n K) (x' : Mat n' K) (W1 : Mat K H) (b1 : Row H) (W2 : Mat H p) (b2 : Row p)
    (r : Fin n) (r' : Fin n') (hx : ∀ k : Fin K, x (ix2 r k) = x' (ix2 r' k)) (j : Fin p) :
    mlp x W1 b1 W2 b2 (ix2 r j) = mlp x' W1 b1 W2 b2 (ix2 r' j) := by
  -- the hidden layer's row r of x is its row r' of x', since the two input rows agree
  have hrow : ∀ h : Fin H, dense x W1 b1 (ix2 r h) = dense x' W1 b1 (ix2 r' h) := fun h => by
    show (∑ i : Fin K, x (ix2 r i) * W1 (ix2 i h)) + b1 (ix1 h) = (∑ i : Fin K, x' (ix2 r' i) * W1 (ix2 i h)) + b1 (ix1 h)
    rw [Finset.sum_congr rfl fun i _ => by rw [hx i]]
  show (∑ h : Fin H, max (dense x W1 b1 (ix2 r h)) 0 * W2 (ix2 h j)) + b2 (ix1 j)
    = (∑ h : Fin H, max (dense x' W1 b1 (ix2 r' h)) 0 * W2 (ix2 h j)) + b2 (ix1 j)
  rw [Finset.sum_congr rfl fun h _ => by rw [hrow h]]

end Cert.Mlp

end
-- ==== Proof.Cat.lean ====
/-
  Columns laid side by side.

  `cat2 hw a b` is the [n, w] array whose row `r` is row `r` of `a` (p columns) followed by row `r` of `b` (q columns),
  p + q = w. The tensor operation `concatenate` along axis 1 of two such arrays is `cat2`; of three it is `cat2` of the
  first and the `cat2` of the other two (joining columns is associative). An entry of `cat2 hw a b` in row `r` reads
  only row `r` of `a` and of `b`.
-/
import Idealize.ShloMosaic.Lib.ValueIdx
import Idealize.ShloMosaic.Lib.Pipeline.Value
import Idealize.ShloMosaic.PureOps.Ideal

noncomputable section

namespace Cert.Cat

open Idealize.ShloMosaic Idealize.ShloMosaic.ValueIdx

/-- An [n, p] array of extended reals. -/
abbrev Mat (n p : Nat) : Type := (⟨2, ![n, p]⟩ : Shape).Idx → EReal

/-- Row `r` of the result is row `r` of `a` then row `r` of `b`. -/
def cat2 {n p q w : Nat} (hw : p + q = w) (a : Mat n p) (b : Mat n q) : Mat n w := fun j =>
  if h : (j 1).val < p then a (ix2 (n0 := n) (n1 := p) (j 0) ⟨(j 1).val, h⟩)
  else b (ix2 (n0 := n) (n1 := q) (j 0) ⟨(j 1).val - p, by have h1 : (j 1).val < w := (j 1).isLt; omega⟩)

/-- Joining two arrays along the column axis is `cat2`. -/
theorem concatenate_pair_eq {n p q w : Nat} (hw : p + q = w) (a : Mat n p) (b : Mat n q)
    (h : Shape.Concatenates [(⟨2, ![n, p]⟩ : Shape), (⟨2, ![n, q]⟩ : Shape)] (⟨2, ![n, w]⟩ : Shape) 1) :
    concatenate (⟨2, ![n, w]⟩ : Shape) 1 [⟨(⟨2, ![n, p]⟩ : Shape), a⟩, ⟨(⟨2, ![n, q]⟩ : Shape), b⟩] h = cat2 hw a b := by
  funext j
  have hj1 : (j 1).val < w := (j 1).isLt
  unfold cat2
  by_cases hlt : (j 1).val < p
  · rw [dif_pos hlt]
    refine concatenate_pair_apply_left _ a b h j rfl (ix2 (j 0) ⟨(j 1).val, hlt⟩) ?_
    intro c
    match c with
    | ⟨0, _⟩ => rfl
    | ⟨1, _⟩ => rfl
  · rw [dif_neg hlt]
    refine concatenate_pair_apply_right _ a b h j rfl rfl (ix2 (j 0) ⟨(j 1).val - p, by omega⟩) ?_ ?_
    · intro c hc
      match c, hc with
      | ⟨0, _⟩, _ => rfl
      | ⟨1, _⟩, hc => exact absurd rfl hc
    · show (j 1).val - p + p = (j 1).val
      omega

/-- Joining three arrays along the column axis is the first beside the join of the other two. -/
theorem concatenate_triple_eq {n p q r v w : Nat} (hv : q + r = v) (hw : p + v = w) (a : Mat n p) (b : Mat n q) (c : Mat n r)
    (h : Shape.Concatenates [(⟨2, ![n, p]⟩ : Shape), (⟨2, ![n, q]⟩ : Shape), (⟨2, ![n, r]⟩ : Shape)] (⟨2, ![n, w]⟩ : Shape) 1) :
    concatenate (⟨2, ![n, w]⟩ : Shape) 1
      [⟨(⟨2, ![n, p]⟩ : Shape), a⟩, ⟨(⟨2, ![n, q]⟩ : Shape), b⟩, ⟨(⟨2, ![n, r]⟩ : Shape), c⟩] h
      = cat2 hw a (cat2 hv b c) := by
  funext j
  have hj1 : (j 1).val < w := (j 1).isLt
  unfold cat2
  by_cases h1 : (j 1).val < p
  · rw [dif_pos h1]
    refine concatenate_apply_piece _ _ _ j 0 (by simp) _ a rfl rfl 0 rfl _ ?_ ?_
    · intro d hd
      match d, hd with
      | ⟨0, _⟩, _ => rfl
      | ⟨1, _⟩, hd => exact absurd rfl hd
    · show 0 + (j 1).val = (j 1).val
      omega
  · rw [dif_neg h1]
    split
    · next h2 =>
      have h2' : (j 1).val - p < q := h2
      refine concatenate_apply_piece _ _ _ j 1 (by simp) _ b rfl rfl p rfl _ ?_ ?_
      · intro d hd
        match d, hd with
        | ⟨0, _⟩, _ => rfl
        | ⟨1, _⟩, hd => exact absurd rfl hd
      · show p + ((j 1).val - p) = (j 1).val
        omega
    · next h2 =>
      have h2' : ¬ ((j 1).val - p < q) := h2
      refine concatenate_apply_piece _ _ _ j 2 (by simp) _ c rfl rfl (p + q) rfl _ ?_ ?_
      · intro d hd
        match d, hd with
        | ⟨0, _⟩, _ => rfl
        | ⟨1, _⟩, hd => exact absurd rfl hd
      · show p + q + ((j 1).val - p - q) = (j 1).val
        omega

/-- An entry in row `r` reads only row `r` of the two pieces: arrays (of any heights) that agree on a row give joins
    that agree on it. -/
theorem cat2_row {n n' p q w : Nat} (hw : p + q = w) (a : Mat n p) (b : Mat n q) (a' : Mat n' p) (b' : Mat n' q)
    (r : Fin n) (r' : Fin n')
    (ha : ∀ k : Fin p, a (ix2 r k) = a' (ix2 r' k)) (hb : ∀ k : Fin q, b (ix2 r k) = b' (ix2 r' k)) (k : Fin w) :
    cat2 hw a b (ix2 r k) = cat2 hw a' b' (ix2 r' k) := by
  unfold cat2
  by_cases hlt : k.val < p
  · have e1 : ((ix2 r k : (⟨2, ![n, w]⟩ : Shape).Idx) 1).val < p := hlt
    have e2 : ((ix2 r' k : (⟨2, ![n', w]⟩ : Shape).Idx) 1).val < p := hlt
    rw [dif_pos e1, dif_pos e2]
    exact ha ⟨k.val, hlt⟩
  · have e1 : ¬ ((ix2 r k : (⟨2, ![n, w]⟩ : Shape).Idx) 1).val < p := hlt
    have e2 : ¬ ((ix2 r' k : (⟨2, ![n', w]⟩ : Shape).Idx) 1).val < p := hlt
    rw [dif_neg e1, dif_neg e2]
    exact hb ⟨k.val - p, by have := k.isLt; omega⟩

end Cert.Cat

end
-- ==== Proof.Spec.lean ====
/-
  The two updates of the message-passing layer as functions of whole arrays.

  `edgeOut`: every edge's row is the perceptron of its own attribute row followed by the feature rows gathered for its two
  endpoints (384 columns). `nodeOut`: every node's row is the perceptron of its feature row followed by the row of
  summed edge results (256 columns). Both are computed row by row, so a block of rows computed from the matching
  blocks of the inputs is the matching block of the whole result (`edge_rows`, `node_rows`).
-/
import proofs.«173672_j50869592655555_1_alg».proof.Proof.Mlp
import proofs.«173672_j50869592655555_1_alg».proof.Proof.Cat

noncomputable section

namespace Cert.Spec

open Idealize.ShloMosaic Idealize.ShloMosaic.ValueIdx Cert.Mlp
open Cert.Cat (cat2 cat2_row)

theorem h256 : 128 + 128 = 256 := rfl
theorem h384 : 128 + 256 = 384 := rfl

/-- The edge update on `n` rows: attributes, source rows and destination rows side by side, through the perceptron. -/
def edgeOut {n : Nat} (ea gs gd : Mat n 128) (W1 : Mat 384 256) (b1 : Row 256) (W2 : Mat 256 128) (b2 : Row 128) : Mat n 128 :=
  mlp (cat2 h384 ea (cat2 h256 gs gd)) W1 b1 W2 b2

/-- The node update on `n` rows: features and summed edge results side by side, through the perceptron. -/
def nodeOut {n : Nat} (nr e2n : Mat n 128) (W1 : Mat 256 256) (b1 : Row 256) (W2 : Mat 256 128) (b2 : Row 128) : Mat n 128 :=
  mlp (cat2 h256 nr e2n) W1 b1 W2 b2

/-- A row of the edge update reads only that row of its three inputs. -/
theorem edge_rows {n n' : Nat} (ea gs gd : Mat n 128) (ea' gs' gd' : Mat n' 128) (W1 : Mat 384 256) (b1 : Row 256)
    (W2 : Mat 256 128) (b2 : Row 128) (r : Fin n) (r' : Fin n')
    (h0 : ∀ k : Fin 128, ea (ix2 r k) = ea' (ix2 r' k)) (h1 : ∀ k : Fin 128, gs (ix2 r k) = gs' (ix2 r' k))
    (h2 : ∀ k : Fin 128, gd (ix2 r k) = gd' (ix2 r' k)) (j : Fin 128) :
    edgeOut ea gs gd W1 b1 W2 b2 (ix2 r j) = edgeOut ea' gs' gd' W1 b1 W2 b2 (ix2 r' j) :=
  mlp_row _ _ W1 b1 W2 b2 r r'
    (fun k => cat2_row h384 ea _ ea' _ r r' h0 (fun k' => cat2_row h256 gs gd gs' gd' r r' h1 h2 k') k) j

/-- A row of the node update reads only that row of its two inputs. -/
theorem node_rows {n n' : Nat} (nr e2n : Mat n 128) (nr' e2n' : Mat n' 128) (W1 : Mat 256 256) (b1 : Row 256)
    (W2 : Mat 256 128) (b2 : Row 128) (r : Fin n) (r' : Fin n')
    (h0 : ∀ k : Fin 128, nr (ix2 r k) = nr' (ix2 r' k)) (h1 : ∀ k : Fin 128, e2n (ix2 r k) = e2n' (ix2 r' k)) (j : Fin 128) :
    nodeOut nr e2n W1 b1 W2 b2 (ix2 r j) = nodeOut nr' e2n' W1 b1 W2 b2 (ix2 r' j) :=
  mlp_row _ _ W1 b1 W2 b2 r r' (fun k => cat2_row h256 nr e2n nr' e2n' r r' h0 h1 k) j

end Cert.Spec

end
-- ==== Proof.EdgeValue.lean ====
/-
  The first kernel region: the edge update, 2400 edges at a time.

  The region's grid has 250 points; point t stages rows 2400·t … 2400·t + 2399 of the edge attributes and of the two gathered
  endpoint arrays, and the whole of each weight and bias array, and writes back rows 2400·t … of the result. What the
  body leaves in the result's block is the perceptron of the staged rows side by side, which is the matching block of
  rows of `edgeOut` of the whole arrays (each row of the update reads only that row of its inputs). The blocks tile the
  result array, so at the region's exit the array is `edgeOut` of the arrays the region found.
-/
import proofs.«173672_j50869592655555_1_alg».proof.Proof.Gen.KernelIdeal.Frame
import proofs.«173672_j50869592655555_1_alg».proof.Proof.Spec
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Mlp Cert.Cat Cert.Spec

/-! ## The body's arithmetic is the edge update of the staged blocks -/

theorem plain1 : Plain dot_S2400x384_S384x256_S2400x256_1_0_0_1_n_n := ⟨rfl, rfl, rfl, rfl, rfl, rfl⟩
theorem plain2 : Plain dot_S2400x256_S256x128_S2400x128_1_0_0_1_n_n := ⟨rfl, rfl, rfl, rfl, rfl, rfl⟩

/-- The stored value: the three row blocks joined, a dense layer, the maximum with zero, a dense layer. -/
theorem pay_eq (v0 v1 v3 : Vec Ideal S2400x128 .f32) (v7 : Vec Ideal S384x256 .f32) (v10 : Vec Ideal S256 .f32)
    (v17 : Vec Ideal S256x128 .f32) (v20 : Vec Ideal S128 .f32) :
    k0_pay1 (F := Ideal) v0 v1 v3 v7 v10 v17 v20 = edgeOut v0 v1 v3 v7 v10 v17 v20 := by
  unfold k0_pay1 edgeOut mlp
  dsimp only
  rw [shapeCast_self, shapeCast_self, concatenate_triple_eq h256 h384 v0 v1 v3,
    matmul_eq_dense _ plain1, matmul_eq_dense _ plain2]
  exact congrArg (fun h => dense h v17 v20) (maximumf_broadcast_eq_relu _ bitsLt_bf16_f32)

variable (V : (c : Dev nD) → (b : Ref sig .tc) → Buf (Elt Ideal) ((c : Thread nD τ).loc b))

/-! ## The blocks the region stages -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: a row-blocked window's block is the point's number down the rows and 0 across; a weight's
    or a bias's block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The staged blocks, at their literal types. -/
abbrev eaBlk (c : Dev nD) (t : Fin cfg0.N) : Vec Ideal S2400x128 .f32 := iblk0 V c 0 t
abbrev gsBlk (c : Dev nD) (t : Fin cfg0.N) : Vec Ideal S2400x128 .f32 := iblk0 V c 1 t
abbrev gdBlk (c : Dev nD) (t : Fin cfg0.N) : Vec Ideal S2400x128 .f32 := iblk0 V c 2 t
abbrev w1Blk (c : Dev nD) (t : Fin cfg0.N) : Vec Ideal S384x256 .f32 := iblk0 V c 3 t
abbrev b1Blk (c : Dev nD) (t : Fin cfg0.N) : Vec Ideal S256 .f32 := iblk0 V c 4 t
abbrev w2Blk (c : Dev nD) (t : Fin cfg0.N) : Vec Ideal S256x128 .f32 := iblk0 V c 5 t
abbrev b2Blk (c : Dev nD) (t : Fin cfg0.N) : Vec Ideal S128 .f32 := iblk0 V c 6 t

/-- The whole arrays as the region finds them, at their literal types. -/
abbrev eaArr (c : Dev nD) : Vec Ideal S600000x128 .f32 := V c main_arg1
abbrev gsArr (c : Dev nD) : Vec Ideal S600000x128 .f32 := V c main_v6
abbrev gdArr (c : Dev nD) : Vec Ideal S600000x128 .f32 := V c main_v13
abbrev w1Arr (c : Dev nD) : Vec Ideal S384x256 .f32 := V c main_arg2
abbrev b1Arr (c : Dev nD) : Vec Ideal S256 .f32 := V c main_arg3
abbrev w2Arr (c : Dev nD) : Vec Ideal S256x128 .f32 := V c main_arg4
abbrev b2Arr (c : Dev nD) : Vec Ideal S128 .f32 := V c main_arg5

/-- Row y of point t's block of the edge attributes is row 2400·t + y of the array. -/
theorem ea_rows (c : Dev nD) (t : Fin cfg0.N) (y0 : Fin 2400) (r : Fin 600000) (hr : r.val = 2400 * t.val + y0.val) (k : Fin 128) :
    eaBlk V c t (ix2 y0 k) = eaArr V c (ix2 r k) := by
  show V c main_arg1 (((cfg0.win 0).blk t).view.emb (ix2 y0 k)) = V c main_arg1 (ix2 r k)
  refine congrArg (V c main_arg1) (funext fun a => Fin.ext ?_)
  obtain ⟨e0, e1, -⟩ := idx_facts t
  match a with
  | ⟨0, _⟩ => show win0_0.index t (0 : Fin 2) * 2400 + 1 * y0.val = r.val; omega
  | ⟨1, _⟩ => show win0_0.index t (1 : Fin 2) * 128 + 1 * k.val = k.val; omega

theorem gs_rows (c : Dev nD) (t : Fin cfg0.N) (y0 : Fin 2400) (r : Fin 600000) (hr : r.val = 2400 * t.val + y0.val) (k : Fin 128) :
    gsBlk V c t (ix2 y0 k) = gsArr V c (ix2 r k) := by
  show V c main_v6 (((cfg0.win 1).blk t).view.emb (ix2 y0 k)) = V c main_v6 (ix2 r k)
  refine congrArg (V c main_v6) (funext fun a => Fin.ext ?_)
  obtain ⟨-, -, e0, e1, -⟩ := idx_facts t
  match a with
  | ⟨0, _⟩ => show win0_1.index t (0 : Fin 2) * 2400 + 1 * y0.val = r.val; omega
  | ⟨1, _⟩ => show win0_1.index t (1 : Fin 2) * 128 + 1 * k.val = k.val; omega

theorem gd_rows (c : Dev nD) (t : Fin cfg0.N) (y0 : Fin 2400) (r : Fin 600000) (hr : r.val = 2400 * t.val + y0.val) (k : Fin 128) :
    gdBlk V c t (ix2 y0 k) = gdArr V c (ix2 r k) := by
  show V c main_v13 (((cfg0.win 2).blk t).view.emb (ix2 y0 k)) = V c main_v13 (ix2 r k)
  refine congrArg (V c main_v13) (funext fun a => Fin.ext ?_)
  obtain ⟨-, -, -, -, e0, e1, -⟩ := idx_facts t
  match a with
  | ⟨0, _⟩ => show win0_2.index t (0 : Fin 2) * 2400 + 1 * y0.val = r.val; omega
  | ⟨1, _⟩ => show win0_2.index t (1 : Fin 2) * 128 + 1 * k.val = k.val; omega

/-- A weight or bias window's block is its whole array, at every point. -/
theorem w1_whole (c : Dev nD) (t : Fin cfg0.N) : w1Blk V c t = w1Arr V c := by
  funext y
  show V c main_arg2 (((cfg0.win 3).blk t).view.emb y) = V c main_arg2 y
  refine congrArg (V c main_arg2) (funext fun a => Fin.ext ?_)
  obtain ⟨-, -, -, -, -, -, e0, e1, -⟩ := idx_facts t
  match a with
  | ⟨0, _⟩ => show win0_3.index t (0 : Fin 2) * 384 + 1 * (y 0).val = (y 0).val; omega
  | ⟨1, _⟩ => show win0_3.index t (1 : Fin 2) * 256 + 1 * (y 1).val = (y 1).val; omega

theorem b1_whole (c : Dev nD) (t : Fin cfg0.N) : b1Blk V c t = b1Arr V c := by
  funext y
  show V c main_arg3 (((cfg0.win 4).blk t).view.emb y) = V c main_arg3 y
  refine congrArg (V c main_arg3) (funext fun a => Fin.ext ?_)
  obtain ⟨-, -, -, -, -, -, -, -, e0, -⟩ := idx_facts t
  match a with
  | ⟨0, _⟩ => show win0_4.index t (0 : Fin 1) * 256 + 1 * (y 0).val = (y 0).val; omega

theorem w2_whole (c : Dev nD) (t : Fin cfg0.N) : w2Blk V c t = w2Arr V c := by
  funext y
  show V c main_arg4 (((cfg0.win 5).blk t).view.emb y) = V c main_arg4 y
  refine congrArg (V c main_arg4) (funext fun a => Fin.ext ?_)
  obtain ⟨-, -, -, -, -, -, -, -, -, e0, e1, -⟩ := idx_facts t
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem b2_whole (c : Dev nD) (t : Fin cfg0.N) : b2Blk V c t = b2Arr V c := by
  funext y
  show V c main_arg5 (((cfg0.win 6).blk t).view.emb y) = V c main_arg5 y
  refine congrArg (V c main_arg5) (funext fun a => Fin.ext ?_)
  obtain ⟨-, -, -, -, -, -, -, -, -, -, -, e0, -⟩ := idx_facts t
  match a with
  | ⟨0, _⟩ => show win0_6.index t (0 : Fin 1) * 128 + 1 * (y 0).val = (y 0).val; omega

/-! ## What the region leaves in the result array -/

/-- The edge update of the arrays the region finds. -/
abbrev result (c : Dev nD) : Vec Ideal S600000x128 .f32 :=
  edgeOut (eaArr V c) (gsArr V c) (gdArr V c) (w1Arr V c) (b1Arr V c) (w2Arr V c) (b2Arr V c)

/-- Point t writes back rows 2400·t … of the edge update. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz2]
  simp only [View.ld_unit_zero (S := S2400x128) hz2, View.ld_unit_zero (S := S384x256) hz2, View.ld_unit_zero (S := S256) hz1,
    View.ld_unit_zero (S := S256x128) hz2, View.ld_unit_zero (S := S128) hz1]
  refine (pay_eq (eaBlk V c t) (gsBlk V c t) (gdBlk V c t) (w1Blk V c t) (b1Blk V c t) (w2Blk V c t) (b2Blk V c t)).trans ?_
  rw [w1_whole V c t, b1_whole V c t, w2_whole V c t, b2_whole V c t]
  funext y
  obtain ⟨y0, y1, rfl⟩ : ∃ (y0 : Fin 2400) (y1 : Fin 128), y = ix2 y0 y1 := ⟨y 0, y 1, eq_ix2 y⟩
  have ht : t.val < 250 := t.isLt
  obtain ⟨-, -, -, -, -, -, -, -, -, -, -, -, e0, e1⟩ := idx_facts t
  have hemb : ((cfg0.win 7).blk t).view.emb (ix2 y0 y1)
      = ix2 (n0 := 600000) (n1 := 128) ⟨2400 * t.val + y0.val, by have := y0.isLt; omega⟩ y1 := by
    funext a; apply Fin.ext
    match a with
    | ⟨0, _⟩ => show win0_7.index t (0 : Fin 2) * 2400 + 1 * y0.val = 2400 * t.val + y0.val; omega
    | ⟨1, _⟩ => show win0_7.index t (1 : Fin 2) * 128 + 1 * y1.val = y1.val; omega
  show edgeOut (eaBlk V c t) (gsBlk V c t) (gdBlk V c t) (w1Arr V c) (b1Arr V c) (w2Arr V c) (b2Arr V c) (ix2 y0 y1)
      = result V c (((cfg0.win 7).blk t).view.emb (ix2 y0 y1))
  rw [hemb]
  exact edge_rows (eaBlk V c t) (gsBlk V c t) (gdBlk V c t) (eaArr V c) (gsArr V c) (gdArr V c) (w1Arr V c) (b1Arr V c)
    (w2Arr V c) (b2Arr V c) y0 ⟨2400 * t.val + y0.val, by have := y0.isLt; omega⟩
    (ea_rows V c t y0 _ rfl) (gs_rows V c t y0 _ rfl) (gd_rows V c t y0 _ rfl) y1

/-- An index is in point t's block iff its row is among the block's 2400 and its column among the 128. -/
theorem mem_blk (t : Fin cfg0.N) (i : S600000x128.Idx) :
    i ∈ ((cfg0.win 7).blk t).view.set ↔ ∀ a : Fin 2, win0_7.index t a * S2400x128.size a ≤ (i a).val ∧ (i a).val < win0_7.index t a * S2400x128.size a + S2400x128.size a := by
  show i ∈ ((View.whole main_v14).slice (win0_7.rect t)).set ↔ _
  rw [View.set_slice_whole, Rect.mem_set_unit]
  exact Iff.rfl

/-- Every index of the result array is in the block of the point numbered by its row over 2400. -/
theorem cover (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  let t : Fin cfg0.N := ⟨(i 0).val / 2400, by show (i 0).val / 2400 < 250; omega⟩
  refine ⟨t, flush0_7 t, ?_⟩
  rw [mem_blk]
  obtain ⟨-, -, -, -, -, -, -, -, -, -, -, -, e0, e1⟩ := idx_facts t
  have htv : t.val = (i 0).val / 2400 := rfl
  intro a
  match a with
  | ⟨0, _⟩ => show win0_7.index t (0 : Fin 2) * 2400 ≤ (i 0).val ∧ (i 0).val < win0_7.index t (0 : Fin 2) * 2400 + 2400; omega
  | ⟨1, _⟩ => show win0_7.index t (1 : Fin 2) * 128 ≤ (i 1).val ∧ (i 1).val < win0_7.index t (1 : Fin 2) * 128 + 128; omega

/-- At the region's exit the result array is the edge update of the arrays the region found. -/
theorem final (c : Dev nD) : (dat0 V c).arrAt 7 cfg0.N = result V c :=
  (dat0 V c).arrAt_eq_of_cover 7 (result V c) (fun t _ => flushed_eq V c t) cover

end Cert.KernelIdeal.EdgeValue

end
-- ==== Proof.NodeValue.lean ====
/-
  The second kernel region: the node update, 2000 nodes at a time.

  The region's grid has 50 points; point t stages rows 2000·t … 2000·t + 1999 of the node features and of the summed edge
  results, and the whole of each weight and bias array, and writes back rows 2000·t … of the result. What the body
  leaves in the result's block is the perceptron of the two staged row blocks side by side, which is the matching
  block of rows of `nodeOut` of the whole arrays (each row of the update reads only that row of its inputs). The blocks
  tile the result array, so at the region's exit the array is `nodeOut` of the arrays the region found.
-/
import proofs.«173672_j50869592655555_1_alg».proof.Proof.Gen.KernelIdeal.Frame
import proofs.«173672_j50869592655555_1_alg».proof.Proof.Spec
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Mlp Cert.Cat Cert.Spec

/-! ## The body's arithmetic is the node update of the staged blocks -/

theorem plain1 : Plain dot_S2000x256_S256x256_S2000x256_1_0_0_1_n_n := ⟨rfl, rfl, rfl, rfl, rfl, rfl⟩
theorem plain2 : Plain dot_S2000x256_S256x128_S2000x128_1_0_0_1_n_n := ⟨rfl, rfl, rfl, rfl, rfl, rfl⟩

/-- The stored value: the two row blocks joined, a dense layer, the maximum with zero, a dense layer. -/
theorem pay_eq (v0 v1 : Vec Ideal S2000x128 .f32) (v5 : Vec Ideal S256x256 .f32) (v8 : Vec Ideal S256 .f32)
    (v15 : Vec Ideal S256x128 .f32) (v18 : Vec Ideal S128 .f32) :
    k1_pay1 (F := Ideal) v0 v1 v5 v8 v15 v18 = nodeOut v0 v1 v5 v8 v15 v18 := by
  unfold k1_pay1 nodeOut mlp
  dsimp only
  rw [shapeCast_self, concatenate_pair_eq h256 v0 v1,
    matmul_eq_dense _ plain1, matmul_eq_dense _ plain2]
  exact congrArg (fun h => dense h v15 v18) (maximumf_broadcast_eq_relu _ bitsLt_bf16_f32)

variable (V : (c : Dev nD) → (b : Ref sig .tc) → Buf (Elt Ideal) ((c : Thread nD τ).loc b))

/-! ## The blocks the region stages -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: a row-blocked window's block is the point's number down the rows and 0 across; a weight's
    or a bias's block index is 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The staged blocks, at their literal types. -/
abbrev nrBlk (c : Dev nD) (t : Fin cfg1.N) : Vec Ideal S2000x128 .f32 := iblk1 V c 0 t
abbrev enBlk (c : Dev nD) (t : Fin cfg1.N) : Vec Ideal S2000x128 .f32 := iblk1 V c 1 t
abbrev w1Blk (c : Dev nD) (t : Fin cfg1.N) : Vec Ideal S256x256 .f32 := iblk1 V c 2 t
abbrev b1Blk (c : Dev nD) (t : Fin cfg1.N) : Vec Ideal S256 .f32 := iblk1 V c 3 t
abbrev w2Blk (c : Dev nD) (t : Fin cfg1.N) : Vec Ideal S256x128 .f32 := iblk1 V c 4 t
abbrev b2Blk (c : Dev nD) (t : Fin cfg1.N) : Vec Ideal S128 .f32 := iblk1 V c 5 t

/-- The whole arrays as the region finds them, at their literal types. -/
abbrev nrArr (c : Dev nD) : Vec Ideal S100000x128 .f32 := V c main_arg0
abbrev enArr (c : Dev nD) : Vec Ideal S100000x128 .f32 := V c main_v29
abbrev w1Arr (c : Dev nD) : Vec Ideal S256x256 .f32 := V c main_arg6
abbrev b1Arr (c : Dev nD) : Vec Ideal S256 .f32 := V c main_arg7
abbrev w2Arr (c : Dev nD) : Vec Ideal S256x128 .f32 := V c main_arg8
abbrev b2Arr (c : Dev nD) : Vec Ideal S128 .f32 := V c main_arg9

/-- Row y of point t's block of the node features is row 2000·t + y of the array. -/
theorem nr_rows (c : Dev nD) (t : Fin cfg1.N) (y0 : Fin 2000) (r : Fin 100000) (hr : r.val = 2000 * t.val + y0.val) (k : Fin 128) :
    nrBlk V c t (ix2 y0 k) = nrArr V c (ix2 r k) := by
  show V c main_arg0 (((cfg1.win 0).blk t).view.emb (ix2 y0 k)) = V c main_arg0 (ix2 r k)
  refine congrArg (V c main_arg0) (funext fun a => Fin.ext ?_)
  obtain ⟨e0, e1, -⟩ := idx_facts t
  match a with
  | ⟨0, _⟩ => show win1_0.index t (0 : Fin 2) * 2000 + 1 * y0.val = r.val; omega
  | ⟨1, _⟩ => show win1_0.index t (1 : Fin 2) * 128 + 1 * k.val = k.val; omega

theorem en_rows (c : Dev nD) (t : Fin cfg1.N) (y0 : Fin 2000) (r : Fin 100000) (hr : r.val = 2000 * t.val + y0.val) (k : Fin 128) :
    enBlk V c t (ix2 y0 k) = enArr V c (ix2 r k) := by
  show V c main_v29 (((cfg1.win 1).blk t).view.emb (ix2 y0 k)) = V c main_v29 (ix2 r k)
  refine congrArg (V c main_v29) (funext fun a => Fin.ext ?_)
  obtain ⟨-, -, e0, e1, -⟩ := idx_facts t
  match a with
  | ⟨0, _⟩ => show win1_1.index t (0 : Fin 2) * 2000 + 1 * y0.val = r.val; omega
  | ⟨1, _⟩ => show win1_1.index t (1 : Fin 2) * 128 + 1 * k.val = k.val; omega

/-- A weight or bias window's block is its whole array, at every point. -/
theorem w1_whole (c : Dev nD) (t : Fin cfg1.N) : w1Blk V c t = w1Arr V c := by
  funext y
  show V c main_arg6 (((cfg1.win 2).blk t).view.emb y) = V c main_arg6 y
  refine congrArg (V c main_arg6) (funext fun a => Fin.ext ?_)
  obtain ⟨-, -, -, -, e0, e1, -⟩ := idx_facts t
  match a with
  | ⟨0, _⟩ => show win1_2.index t (0 : Fin 2) * 256 + 1 * (y 0).val = (y 0).val; omega
  | ⟨1, _⟩ => show win1_2.index t (1 : Fin 2) * 256 + 1 * (y 1).val = (y 1).val; omega

theorem b1_whole (c : Dev nD) (t : Fin cfg1.N) : b1Blk V c t = b1Arr V c := by
  funext y
  show V c main_arg7 (((cfg1.win 3).blk t).view.emb y) = V c main_arg7 y
  refine congrArg (V c main_arg7) (funext fun a => Fin.ext ?_)
  obtain ⟨-, -, -, -, -, -, e0, -⟩ := idx_facts t
  match a with
  | ⟨0, _⟩ => show win1_3.index t (0 : Fin 1) * 256 + 1 * (y 0).val = (y 0).val; omega

theorem w2_whole (c : Dev nD) (t : Fin cfg1.N) : w2Blk V c t = w2Arr V c := by
  funext y
  show V c main_arg8 (((cfg1.win 4).blk t).view.emb y) = V c main_arg8 y
  refine congrArg (V c main_arg8) (funext fun a => Fin.ext ?_)
  obtain ⟨-, -, -, -, -, -, -, e0, e1, -⟩ := idx_facts t
  match a with
  | ⟨0, _⟩ => show win1_4.index t (0 : Fin 2) * 256 + 1 * (y 0).val = (y 0).val; omega
  | ⟨1, _⟩ => show win1_4.index t (1 : Fin 2) * 128 + 1 * (y 1).val = (y 1).val; omega

theorem b2_whole (c : Dev nD) (t : Fin cfg1.N) : b2Blk V c t = b2Arr V c := by
  funext y
  show V c main_arg9 (((cfg1.win 5).blk t).view.emb y) = V c main_arg9 y
  refine congrArg (V c main_arg9) (funext fun a => Fin.ext ?_)
  obtain ⟨-, -, -, -, -, -, -, -, -, e0, -⟩ := idx_facts t
  match a with
  | ⟨0, _⟩ => show win1_5.index t (0 : Fin 1) * 128 + 1 * (y 0).val = (y 0).val; omega

/-! ## What the region leaves in the result array -/

/-- The node update of the arrays the region finds. -/
abbrev result (c : Dev nD) : Vec Ideal S100000x128 .f32 :=
  nodeOut (nrArr V c) (enArr V c) (w1Arr V c) (b1Arr V c) (w2Arr V c) (b2Arr V c)

/-- Point t writes back rows 2000·t … of the node update. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S256x256) hz2, View.ld_unit_zero (S := S256) hz1,
    View.ld_unit_zero (S := S256x128) hz2, View.ld_unit_zero (S := S128) hz1]
  refine (pay_eq (nrBlk V c t) (enBlk V c t) (w1Blk V c t) (b1Blk V c t) (w2Blk V c t) (b2Blk V c t)).trans ?_
  rw [w1_whole V c t, b1_whole V c t, w2_whole V c t, b2_whole V c t]
  funext y
  obtain ⟨y0, y1, rfl⟩ : ∃ (y0 : Fin 2000) (y1 : Fin 128), y = ix2 y0 y1 := ⟨y 0, y 1, eq_ix2 y⟩
  have ht : t.val < 50 := t.isLt
  obtain ⟨-, -, -, -, -, -, -, -, -, -, e0, e1⟩ := idx_facts t
  have hemb : ((cfg1.win 6).blk t).view.emb (ix2 y0 y1)
      = ix2 (n0 := 100000) (n1 := 128) ⟨2000 * t.val + y0.val, by have := y0.isLt; omega⟩ y1 := by
    funext a; apply Fin.ext
    match a with
    | ⟨0, _⟩ => show win1_6.index t (0 : Fin 2) * 2000 + 1 * y0.val = 2000 * t.val + y0.val; omega
    | ⟨1, _⟩ => show win1_6.index t (1 : Fin 2) * 128 + 1 * y1.val = y1.val; omega
  show nodeOut (nrBlk V c t) (enBlk V c t) (w1Arr V c) (b1Arr V c) (w2Arr V c) (b2Arr V c) (ix2 y0 y1)
      = result V c (((cfg1.win 6).blk t).view.emb (ix2 y0 y1))
  rw [hemb]
  exact node_rows (nrBlk V c t) (enBlk V c t) (nrArr V c) (enArr V c) (w1Arr V c) (b1Arr V c)
    (w2Arr V c) (b2Arr V c) y0 ⟨2000 * t.val + y0.val, by have := y0.isLt; omega⟩
    (nr_rows V c t y0 _ rfl) (en_rows V c t y0 _ rfl) y1

/-- An index is in point t's block iff its row is among the block's 2000 and its column among the 128. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v30).slice (win1_6.rect t)).set ↔ _
  rw [View.set_slice_whole, Rect.mem_set_unit]
  exact Iff.rfl

/-- Every index of the result array is in the block of the point numbered by its row over 2000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 2000, by show (i 0).val / 2000 < 50; omega⟩
  refine ⟨t, flush1_6 t, ?_⟩
  rw [mem_blk]
  obtain ⟨-, -, -, -, -, -, -, -, -, -, e0, e1⟩ := idx_facts t
  have htv : t.val = (i 0).val / 2000 := rfl
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- At the region's exit the result array is the node update of the arrays the region found. -/
theorem final (c : Dev nD) : (dat1 V c).arrAt 6 cfg1.N = result V c :=
  (dat1 V c).arrAt_eq_of_cover 6 (result V c) (fun t _ => flushed_eq V c t) cover

end Cert.KernelIdeal.NodeValue

end
-- ==== Proof.KernelValue.lean ====
/-
  The idealized kernel program's two results as functions of its argument arrays.

  The edge result is the edge update of the edge attributes and the rows of the node table gathered for each edge's two
  endpoints; the node result is the node update of the node table and, per node, the sum of the edge results of the
  edges that touch it. Read off the run: the contents at the last segment boundary are the two regions' result
  arrays, each region's result array is the update of the arrays that region found, and those are the host operations'
  values of the argument arrays.
-/
import proofs.«173672_j50869592655555_1_alg».proof.Proof.RunValues
import proofs.«173672_j50869592655555_1_alg».proof.Proof.HostValues
import proofs.«173672_j50869592655555_1_alg».proof.Proof.EdgeValue
import proofs.«173672_j50869592655555_1_alg».proof.Proof.NodeValue

set_option maxRecDepth 16384

noncomputable section

namespace Cert.KernelIdeal.KernelValue

open Cert.KernelIdeal Cert.KernelIdeal.Gen Cert.KernelIdeal.HostValues
open Idealize.ShloMosaic Idealize.ShloMosaic.TcCoe Idealize.SL.Sem
open Cert.Spec

variable (m : (ℓ : Loc nD τ sig) → Buf (Elt Ideal) ℓ) (ρ : Dev nD → PrngReg)

/-- The edge result as a function of the argument arrays. -/
def edgeTerm (c : Dev nD) : Vec Ideal S600000x128 .f32 :=
  edgeOut (m ((c : Thread nD τ).loc main_arg1))
    (gathered (F := Ideal) (m ((c : Thread nD τ).loc main_arg0)) (m ((c : Thread nD τ).loc main_arg10)))
    (gathered (F := Ideal) (m ((c : Thread nD τ).loc main_arg0)) (m ((c : Thread nD τ).loc main_arg11)))
    (m ((c : Thread nD τ).loc main_arg2)) (m ((c : Thread nD τ).loc main_arg3))
    (m ((c : Thread nD τ).loc main_arg4)) (m ((c : Thread nD τ).loc main_arg5))

/-- The node result as a function of the argument arrays. -/
def nodeTerm (c : Dev nD) : Vec Ideal S100000x128 .f32 :=
  nodeOut (m ((c : Thread nD τ).loc main_arg0))
    (scattered (F := Ideal) (m ((c : Thread nD τ).loc main_arg10)) (m ((c : Thread nD τ).loc main_arg11)) (edgeTerm m c))
    (m ((c : Thread nD τ).loc main_arg6)) (m ((c : Thread nD τ).loc main_arg7))
    (m ((c : Thread nD τ).loc main_arg8)) (m ((c : Thread nD τ).loc main_arg9))

/-- What the first region leaves in its result array. -/
theorem edge_array (c : Dev nD) : (dat0 (V1 m ρ) c).arrAt 7 cfg0.N = edgeTerm m c := by
  rw [EdgeValue.final (V1 m ρ) c]
  show edgeOut (V1 m ρ c main_arg1) (V1 m ρ c main_v6) (V1 m ρ c main_v13) (V1 m ρ c main_arg2) (V1 m ρ c main_arg3)
    (V1 m ρ c main_arg4) (V1 m ρ c main_arg5) = _
  rw [V1_v6 m ρ c, V1_v13 m ρ c, V1_arg1 m ρ c, V1_arg2 m ρ c, V1_arg3 m ρ c, V1_arg4 m ρ c, V1_arg5 m ρ c]
  rfl

/-- What the second region leaves in its result array. -/
theorem node_array (c : Dev nD) : (dat1 (V3 m ρ) c).arrAt 6 cfg1.N = nodeTerm m c := by
  rw [NodeValue.final (V3 m ρ) c]
  show nodeOut (V3 m ρ c main_arg0) (V3 m ρ c main_v29) (V3 m ρ c main_arg6) (V3 m ρ c main_arg7)
    (V3 m ρ c main_arg8) (V3 m ρ c main_arg9) = _
  rw [V3_v29 m ρ c, V3_arg0 m ρ c, V3_arg6 m ρ c, V3_arg7 m ρ c, V3_arg8 m ρ c, V3_arg9 m ρ c, W2_v14 m ρ c, edge_array m ρ c]
  rfl

/-- Every weakly fair execution of the idealized kernel program terminates, nothing faulting, with the node result and
    the edge result at their functions of the argument arrays, and the argument arrays as launched. -/
theorem run : θ_run defs (onTc (τ := τ) (main (F := Ideal))) ⟨m, fun _ => 0, ρ⟩ (fun r => ∀ c : Dev nD,
      r.2.mem ((c.tc : Thread nD τ).loc main_v30) = nodeTerm m c
      ∧ r.2.mem ((c.tc : Thread nD τ).loc main_v14) = edgeTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans ((W4_v30 m ρ c).trans (node_array m ρ c)),
      (h c).2.1.trans ((W4_v14 m ρ c).trans (edge_array m ρ c)), (h c).2.2⟩)
    (Cert.KernelIdeal.RunValues.run_values m ρ)

end Cert.KernelIdeal.KernelValue

end
-- ==== Proof.RefValue.lean ====
/-
  The idealized reference program's two results as the same two updates of its argument arrays.

  The reference joins the edge attributes with the join of the two gathered arrays (384 columns), applies
  `dot_general`, adds the bias broadcast down the rows, takes the maximum with zero, and applies the second layer the same
  way: entry by entry that is `edgeOut`. It scatters the edge result into the node rows from zero, joins the node table
  with that, and applies the second perceptron: `nodeOut`.
-/
import proofs.«173672_j50869592655555_1_alg».proof.Proof.Gen.ReferenceIdeal.Read
import proofs.«173672_j50869592655555_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.Mlp Cert.Spec
open Cert.Cat (cat2 concatenate_pair_eq)

variable {F : FTy → Type} [FloatOps F]

/-- The index column a row gather or scatter reads: a negative index counts from the table's end. -/
def rowIndex (e : IVec S600000 32) : IVec S600000x1 32 :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 100000#32))) e)

/-- Row `k` of the result is the node table's row at index `k` of `e`. -/
def gathered (x : FVec F S100000x128 .f32) (e : IVec S600000 32) : FVec F S600000x128 .f32 :=
  Host.gather gather_S100000x128_S600000x1_S600000x128_1_0_n_n_0_1_1128 x (rowIndex e)

/-- From zero, every row of `u` added into the row its source index names, then into the row its destination index names. -/
def scattered (e10 e11 : IVec S600000 32) (u : FVec F S600000x128 .f32) : FVec F S100000x128 .f32 :=
  Host.scatterAdd scatter_S100000x128_S600000x1_S600000x128_1_0_0_1
    (Host.scatterAdd scatter_S100000x128_S600000x1_S600000x128_1_0_0_1
      (broadcastInDim S100000x128 ![] bcast_S_S100000x128 (constant (F := F) S_ .f32 0x00000000#32)) (rowIndex e10) u)
    (rowIndex e11) u

theorem plainE1 : Plain dot_S600000x384_S384x256_S600000x256_1_0_0_1_n_n := ⟨rfl, rfl, rfl, rfl, rfl, rfl⟩
theorem plainE2 : Plain dot_S600000x256_S256x128_S600000x128_1_0_0_1_n_n := ⟨rfl, rfl, rfl, rfl, rfl, rfl⟩
theorem plainN1 : Plain dot_S100000x256_S256x256_S100000x256_1_0_0_1_n_n := ⟨rfl, rfl, rfl, rfl, rfl, rfl⟩
theorem plainN2 : Plain dot_S100000x256_S256x128_S100000x128_1_0_0_1_n_n := ⟨rfl, rfl, rfl, rfl, rfl, rfl⟩

/-- The reference's edge result is the edge update. -/
theorem edge_eq (x0 : FVec Ideal S100000x128 .f32) (x1 : FVec Ideal S600000x128 .f32) (x2 : FVec Ideal S384x256 .f32)
    (x3 : FVec Ideal S256 .f32) (x4 : FVec Ideal S256x128 .f32) (x5 : FVec Ideal S128 .f32) (x10 x11 : IVec S600000 32) :
    val_main_v25 (F := Ideal) x0 x1 x2 x3 x4 x5 x10 x11
      = edgeOut x1 (gathered (F := Ideal) x0 x10) (gathered (F := Ideal) x0 x11) x2 x3 x4 x5 := by
  rw [← val_main_v25_eq]
  unfold edgeOut mlp
  rw [concatenate_pair_eq h256, concatenate_pair_eq h384, dotGeneral_eq_dense _ plainE1, dotGeneral_eq_dense _ plainE2]
  exact congrArg (fun h => dense h x4 x5) (maximumf_broadcastInDim_eq_relu _ _)

/-- The summed edge results the reference feeds its node update. -/
theorem sums_eq (x0 : FVec Ideal S100000x128 .f32) (x1 : FVec Ideal S600000x128 .f32) (x2 : FVec Ideal S384x256 .f32)
    (x3 : FVec Ideal S256 .f32) (x4 : FVec Ideal S256x128 .f32) (x5 : FVec Ideal S128 .f32) (x10 x11 : IVec S600000 32) :
    val_main_v40 (F := Ideal) x0 x1 x2 x3 x4 x5 x10 x11
      = scattered (F := Ideal) x10 x11 (val_main_v25 (F := Ideal) x0 x1 x2 x3 x4 x5 x10 x11) := rfl

/-- The reference's node result is the node update. -/
theorem node_eq (x0 : FVec Ideal S100000x128 .f32) (x1 : FVec Ideal S600000x128 .f32) (x2 : FVec Ideal S384x256 .f32)
    (x3 : FVec Ideal S256 .f32) (x4 : FVec Ideal S256x128 .f32) (x5 : FVec Ideal S128 .f32) (x6 : FVec Ideal S256x256 .f32)
    (x7 : FVec Ideal S256 .f32) (x8 : FVec Ideal S256x128 .f32) (x9 : FVec Ideal S128 .f32) (x10 x11 : IVec S600000 32) :
    val_main_v51 (F := Ideal) x0 x1 x2 x3 x4 x5 x6 x7 x8 x9 x10 x11
      = nodeOut x0 (scattered (F := Ideal) x10 x11 (val_main_v25 (F := Ideal) x0 x1 x2 x3 x4 x5 x10 x11)) x6 x7 x8 x9 := by
  unfold val_main_v51 val_main_v50 val_main_v49 val_main_v48 val_main_v47 val_main_v46 val_main_cst_8 val_main_v45
    val_main_v44 val_main_v43 val_main_v42 val_main_v41 nodeOut mlp
  rw [sums_eq, concatenate_pair_eq h256 x0, dotGeneral_eq_dense _ plainN1, dotGeneral_eq_dense _ plainN2]
  exact congrArg (fun h => dense h x8 x9) (maximumf_broadcastInDim_eq_relu _ _)

end Cert.ReferenceIdeal.RefValue

end
-- ==== Proof.lean ====
/-
  A message-passing layer on a graph of 100000 nodes and 600000 edges: per edge, a two-layer perceptron of the edge's
  attributes and its two endpoints' features; per node, a two-layer perceptron of the node's features and the sum of the
  results of the edges that touch it. The kernel program gathers the endpoint rows on the host, runs the edge perceptron
  on the matrix unit 2400 edges at a time (its operands rounded to bf16, which on the extended reals is the identity),
  scatters the sums on the host, and runs the node perceptron 2000 nodes at a time; the reference computes the same two
  perceptrons over whole arrays with `dot_general`.

  Over the extended reals the two programs' results are the same functions of the arguments: the gathers and the
  scatter-adds are the same host operations on both sides; a matrix product into a zero accumulator and `dot_general`
  are the same sum over the contracted axis; three arrays joined at once and joined in two steps are the same array; and
  each row of a perceptron's result reads only that row of its input, so the rows computed block by block are the rows of
  the whole result. No law of arithmetic beyond these identities is used, so the precondition is never opened.

  The frames of the kernel program and of its idealization are the generated ones; the reference's frame is its
  generated run with the results dropped; the idealization rewrote no operation, so `preserves` has nothing to state.
-/
import proofs.«173672_j50869592655555_1_alg».proof.Defs
import proofs.«173672_j50869592655555_1_alg».proof.Proof.Gen.Kernel
import proofs.«173672_j50869592655555_1_alg».proof.Proof.Gen.Kernel.Skeleton
import proofs.«173672_j50869592655555_1_alg».proof.Proof.Gen.Kernel.Launch
import proofs.«173672_j50869592655555_1_alg».proof.Proof.Gen.Kernel.Points
import proofs.«173672_j50869592655555_1_alg».proof.Proof.Gen.Kernel.Frame
import proofs.«173672_j50869592655555_1_alg».proof.Proof.Gen.KernelIdeal
import proofs.«173672_j50869592655555_1_alg».proof.Proof.Gen.KernelIdeal.Skeleton
import proofs.«173672_j50869592655555_1_alg».proof.Proof.Gen.KernelIdeal.Launch
import proofs.«173672_j50869592655555_1_alg».proof.Proof.Gen.KernelIdeal.Points
import proofs.«173672_j50869592655555_1_alg».proof.Proof.Gen.KernelIdeal.Frame
import proofs.«173672_j50869592655555_1_alg».proof.Proof.Gen.ReferenceIdeal
import proofs.«173672_j50869592655555_1_alg».proof.Proof.Gen.Pre_finite_inputs
import proofs.«173672_j50869592655555_1_alg».proof.Proof.Gen.ReferenceIdeal.Run
import proofs.«173672_j50869592655555_1_alg».proof.Proof.Gen.ReferenceIdeal.Read
import proofs.«173672_j50869592655555_1_alg».proof.Proof.KernelValue
import proofs.«173672_j50869592655555_1_alg».proof.Proof.RefValue
import Idealize.ShloMosaic.Adequacy
import Idealize.ShloMosaic.Init

noncomputable section

namespace Cert.Proof

open Idealize.ShloMosaic Idealize.SL.Sem

/-! ## The host operations the two programs share -/

/-- The gathered endpoint rows are one function of the node table and the index array in both programs. -/
theorem gathered_agree (x : FVec Ideal Cert.KernelIdeal.S100000x128 .f32) (e : IVec Cert.KernelIdeal.S600000 32) :
    Cert.ReferenceIdeal.RefValue.gathered (F := Ideal) x e = Cert.KernelIdeal.HostValues.gathered (F := Ideal) x e := rfl

/-- So are the scattered sums of an edge array. -/
theorem scattered_agree (e10 e11 : IVec Cert.KernelIdeal.S600000 32) (u : FVec Ideal Cert.KernelIdeal.S600000x128 .f32) :
    Cert.ReferenceIdeal.RefValue.scattered (F := Ideal) e10 e11 u
      = Cert.KernelIdeal.HostValues.scattered (F := Ideal) e10 e11 u := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both idealized programs end with the node result at the node update and
    the edge result at the edge update of those arguments. -/
theorem algebraic : Cert.algebraic_KernelIdeal_ReferenceIdeal := by
  intro m ρ m' ρ' _ hagree
  refine ⟨Cert.KernelIdeal.KernelValue.nodeTerm m, Cert.KernelIdeal.KernelValue.edgeTerm m,
    Cert.KernelIdeal.KernelValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v51_eq, Cert.ReferenceIdeal.RefValue.node_eq,
      Cert.ReferenceIdeal.RefValue.edge_eq, h0, h1, h2, h3, h4, h5, h6, h7, h8, h9, h10, h11, gathered_agree, gathered_agree, scattered_agree]
    rfl
  · obtain ⟨h0, h1, h2, h3, h4, h5, h6, h7, h8, h9, h10, h11⟩ := hagree c
    rw [Cert.ReferenceIdeal.Read.val_main_v25_eq, Cert.ReferenceIdeal.RefValue.edge_eq,
      h0, h1, h2, h3, h4, h5, h10, h11, gathered_agree, gathered_agree]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
